-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x1 : Shape := ⟨2, ![128, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S200000x128 .f32) (main_arg1 : IVec S2x6400000 32) (main_arg2 : FVec F S128x1 .f32) (main_arg3 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x1 .f32 := Host.absf main_arg2
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S200000x128 : Shape := ⟨2, ![200000, 128]⟩
abbrev S2x6400000 : Shape := ⟨2, ![2, 6400000]⟩
abbrev S128x1 : Shape := ⟨2, ![128, 1]⟩
abbrev S1 : Shape := ⟨1, ![1]⟩
abbrev S200000x1 : Shape := ⟨2, ![200000, 1]⟩
abbrev S8000x128 : Shape := ⟨2, ![8000, 128]⟩
abbrev S8000x1 : Shape := ⟨2, ![8000, 1]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S1x1 : Shape := ⟨2, ![1, 1]⟩

abbrev nBuf : Space → Nat
  | .hbm => 69
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x1, .f32⟩
  | .hbm, ⟨3, _⟩ => ⟨S1, .f32⟩
  | .hbm, ⟨4, _⟩ => ⟨S200000x1, .f32⟩
  | .hbm, ⟨5, _⟩ => ⟨S200000, .i32⟩
  | .hbm, ⟨6, _⟩ => ⟨S1x6400000, .i32⟩
  | .hbm, ⟨7, _⟩ => ⟨S6400000, .i32⟩
  | .hbm, ⟨8, _⟩ => ⟨S6600000, .i32⟩
  | .hbm, ⟨9, _⟩ => ⟨S1x6400000, .i32⟩
  | .hbm, ⟨10, _⟩ => ⟨S6400000, .i32⟩
  | .hbm, ⟨11, _⟩ => ⟨S6600000, .i32⟩
  | .hbm, ⟨12, _⟩ => ⟨S_, .f32⟩
  | .hbm, ⟨13, _⟩ => ⟨S6600000, .f32⟩
  | .hbm, ⟨14, _⟩ => ⟨S_, .f32⟩
  | .hbm, ⟨15, _⟩ => ⟨S200000, .f32⟩
  | .hbm, ⟨16, _⟩ => ⟨S6600000x1, .i32⟩
  | .hbm, ⟨17, _⟩ => ⟨S200000, .f32⟩
  | .hbm, ⟨18, _⟩ => ⟨S_, .f32⟩
  | .hbm, ⟨19, _⟩ => ⟨S200000, .f32⟩
  | .hbm, ⟨20, _⟩ => ⟨S200000, .i1⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S200000, .f32⟩
  | .hbm, ⟨29, _⟩ => ⟨S_, .f32⟩
  | .hbm, ⟨30, _⟩ => ⟨S_, .f32⟩
  | .hbm, ⟨31, _⟩ => ⟨S200000, .f32⟩
  | .hbm, ⟨32, _⟩ => ⟨S200000, .f32⟩
  | .hbm, ⟨33, _⟩ => ⟨S_, .i32⟩
  | .hbm, ⟨34, _⟩ => ⟨S6600000, .i32⟩
  | .hbm, ⟨35, _⟩ => ⟨S6600000, .i1⟩
  | .hbm, ⟨36, _⟩ => ⟨S_, .i32⟩
  | .hbm, ⟨37, _⟩ => ⟨S6600000, .i32⟩
  | .hbm, ⟨38, _⟩ => ⟨S6600000, .i32⟩
  | .hbm, ⟨39, _⟩ => ⟨S6600000, .i32⟩
  | .hbm, ⟨40, _⟩ => ⟨S6600000x1, .i32⟩
  | .hbm, ⟨41, _⟩ => ⟨S6600000, .f32⟩
  | .hbm, ⟨42, _⟩ => ⟨S_, .i32⟩
  | .hbm, ⟨43, _⟩ => ⟨S6600000, .i32⟩
  | .hbm, ⟨44, _⟩ => ⟨S6600000, .i1⟩
  | .hbm, ⟨45, _⟩ => ⟨S_, .i32⟩
  | .hbm, ⟨46, _⟩ => ⟨S6600000, .i32⟩
  | .hbm, ⟨47, _⟩ => ⟨S6600000, .i32⟩
  | .hbm, ⟨48, _⟩ => ⟨S6600000, .i32⟩
  | .hbm, ⟨49, _⟩ => ⟨S6600000x1, .i32⟩
  | .hbm, ⟨50, _⟩ => ⟨S6600000, .f32⟩
  | .hbm, ⟨51, _⟩ => ⟨S6600000, .f32⟩
  | .hbm, ⟨52, _⟩ => ⟨S_, .i32⟩
  | .hbm, ⟨53, _⟩ => ⟨S6600000, .i32⟩
  | .hbm, ⟨54, _⟩ => ⟨S6600000, .i1⟩
  | .hbm, ⟨55, _⟩ => ⟨S_, .i32⟩
  | .hbm, ⟨56, _⟩ => ⟨S6600000, .i32⟩
  | .hbm, ⟨57, _⟩ => ⟨S6600000, .i32⟩
  | .hbm, ⟨58, _⟩ => ⟨S6600000, .i32⟩
  | .hbm, ⟨59, _⟩ => ⟨S6600000x1, .i32⟩
  | .hbm, ⟨60, _⟩ => ⟨S6600000x1, .f32⟩
  | .hbm, ⟨61, _⟩ => ⟨S6600000x1, .f32⟩
  | .hbm, ⟨62, _⟩ => ⟨S6600000x1, .f32⟩
  | .hbm, ⟨63, _⟩ => ⟨S_, .f32⟩
  | .hbm, ⟨64, _⟩ => ⟨S200000x1, .f32⟩
  | .hbm, ⟨65, _⟩ => ⟨S6600000x1, .i32⟩
  | .hbm, ⟨66, _⟩ => ⟨S200000x1, .f32⟩
  | .hbm, ⟨67, _⟩ => ⟨S1x1, .f32⟩
  | .hbm, ⟨68, _⟩ => ⟨S200000x1, .f32⟩
  | .local _ .vmem, ⟨0, _⟩ => ⟨S8000x128, .f32⟩
  | .local _ .vmem, ⟨1, _⟩ => ⟨S8000x128, .f32⟩
  | .local _ .vmem, ⟨2, _⟩ => ⟨S128x1, .f32⟩
  | .local _ .vmem, ⟨3, _⟩ => ⟨S8000x1, .f32⟩
  | .local _ .vmem, ⟨4, _⟩ => ⟨S8000x1, .f32⟩
  | .local _ .vmem, ⟨5, _⟩ => ⟨S8000x1, .f32⟩
  | .local _ .vmem, ⟨6, _⟩ => ⟨S8000x1, .f32⟩
  | .local _ .vmem, ⟨7, _⟩ => ⟨S1x1, .f32⟩
  | .local _ .vmem, ⟨8, _⟩ => ⟨S8000x1, .f32⟩
  | .local _ .vmem, ⟨9, _⟩ => ⟨S8000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  inb_S8000x1_S8000x1_0_0 : ∀ a, (![0, 0] : Fin 2 → Nat) a + S8000x1.size a ≤ S8000x1.size a
  h_S8000x1 : 0 < S8000x1.numel
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S_S200000x1 : S_.BroadcastsInDim S200000x1 (![] : Fin 0 → Fin S200000x1.rank)
  bcast_S1_S1x1_1 : S1.BroadcastsInDim S1x1 (![1] : Fin 1 → Fin S1x1.rank)
  shapeCasts_S8000x1_S8000x1 : S8000x1.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  dot_S8000x128_S128x1_S8000x1_1_0_0_1_n_n_wf : DotDims.WF S8000x128 S128x1 S8000x1 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x1_S6600000x1_S6600000x1_1_0_n_n_0_1_11_wf : GatherDims.WF S200000x1 S6600000x1 S6600000x1 [1] [0] [] [0] [] 1 ![1, 1]
  scatter_S200000x1_S6600000x1_S6600000x1_1_0_0_1_wf : ScatterDims.WF S200000x1 S6600000x1 S6600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S200000x1.size a
  hwx0_2 : ∀ i : grid0.Coords, EltTy.bits .f32 = 32 ∨ (Rect.block (s := S200000x1) S8000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S200000x1.size a
  hwx1_0 : ∀ i : grid1.Coords, EltTy.bits .f32 = 32 ∨ (Rect.block (s := S200000x1) S8000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S200000x1.size a
  hwx1_2 : ∀ i : grid1.Coords, EltTy.bits .f32 = 32 ∨ (Rect.block (s := S200000x1) S8000x1.size (cc1_transform_2 i) (hinb1_2 i)).WholeWords (EltTy.packing .f32)

variable [Facts₀]

def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x1_S6600000x1_S6600000x1_1_0_n_n_0_1_11 : GatherDims S200000x1 S6600000x1 S6600000x1 where
  offsetDims := [1]
  collapsedSliceDims := [0]
  operandBatchingDims := []
  startIndicesBatchingDims := []
  startIndexMap := [0]
  indexVectorDim := 1
  sliceSizes := ![1, 1]
  wf := gather_S200000x1_S6600000x1_S6600000x1_1_0_n_n_0_1_11_wf
def scatter_S200000x1_S6600000x1_S6600000x1_1_0_0_1 : ScatterDims S200000x1 S6600000x1 S6600000x1 where
  updateWindowDims := [1]
  insertedWindowDims := [0]
  scatterDimsToOperandDims := [0]
  indexVectorDim := 1
  wf := scatter_S200000x1_S6600000x1_S6600000x1_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S8000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x1 : Shape := ⟨2, ![128, 1]⟩
abbrev S1 : Shape := ⟨1, ![1]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x1 : Shape := ⟨2, ![200000, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x1, .f32⟩
  | .hbm, ⟨3, _⟩ => ⟨S1, .f32⟩
  | .hbm, ⟨4, _⟩ => ⟨S200000, .i32⟩
  | .hbm, ⟨5, _⟩ => ⟨S1x6400000, .i32⟩
  | .hbm, ⟨6, _⟩ => ⟨S6400000, .i32⟩
  | .hbm, ⟨7, _⟩ => ⟨S6600000, .i32⟩
  | .hbm, ⟨8, _⟩ => ⟨S1x6400000, .i32⟩
  | .hbm, ⟨9, _⟩ => ⟨S6400000, .i32⟩
  | .hbm, ⟨10, _⟩ => ⟨S6600000, .i32⟩
  | .hbm, ⟨11, _⟩ => ⟨S_, .f32⟩
  | .hbm, ⟨12, _⟩ => ⟨S6600000, .f32⟩
  | .hbm, ⟨13, _⟩ => ⟨S_, .f32⟩
  | .hbm, ⟨14, _⟩ => ⟨S200000, .f32⟩
  | .hbm, ⟨15, _⟩ => ⟨S6600000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .i1⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000, .f32⟩
  | .hbm, ⟨28, _⟩ => ⟨S_, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S_, .i32⟩
  | .hbm, ⟨33, _⟩ => ⟨S6600000, .i32⟩
  | .hbm, ⟨34, _⟩ => ⟨S6600000, .i1⟩
  | .hbm, ⟨35, _⟩ => ⟨S_, .i32⟩
  | .hbm, ⟨36, _⟩ => ⟨S6600000, .i32⟩
  | .hbm, ⟨37, _⟩ => ⟨S6600000, .i32⟩
  | .hbm, ⟨38, _⟩ => ⟨S6600000, .i32⟩
  | .hbm, ⟨39, _⟩ => ⟨S6600000x1, .i32⟩
  | .hbm, ⟨40, _⟩ => ⟨S6600000, .f32⟩
  | .hbm, ⟨41, _⟩ => ⟨S_, .i32⟩
  | .hbm, ⟨42, _⟩ => ⟨S6600000, .i32⟩
  | .hbm, ⟨43, _⟩ => ⟨S6600000, .i1⟩
  | .hbm, ⟨44, _⟩ => ⟨S_, .i32⟩
  | .hbm, ⟨45, _⟩ => ⟨S6600000, .i32⟩
  | .hbm, ⟨46, _⟩ => ⟨S6600000, .i32⟩
  | .hbm, ⟨47, _⟩ => ⟨S6600000, .i32⟩
  | .hbm, ⟨48, _⟩ => ⟨S6600000x1, .i32⟩
  | .hbm, ⟨49, _⟩ => ⟨S6600000, .f32⟩
  | .hbm, ⟨50, _⟩ => ⟨S6600000, .f32⟩
  | .hbm, ⟨51, _⟩ => ⟨S200000x1, .f32⟩
  | .hbm, ⟨52, _⟩ => ⟨S_, .i32⟩
  | .hbm, ⟨53, _⟩ => ⟨S6600000, .i32⟩
  | .hbm, ⟨54, _⟩ => ⟨S6600000, .i1⟩
  | .hbm, ⟨55, _⟩ => ⟨S_, .i32⟩
  | .hbm, ⟨56, _⟩ => ⟨S6600000, .i32⟩
  | .hbm, ⟨57, _⟩ => ⟨S6600000, .i32⟩
  | .hbm, ⟨58, _⟩ => ⟨S6600000, .i32⟩
  | .hbm, ⟨59, _⟩ => ⟨S6600000x1, .i32⟩
  | .hbm, ⟨60, _⟩ => ⟨S6600000x1, .f32⟩
  | .hbm, ⟨61, _⟩ => ⟨S6600000x1, .f32⟩
  | .hbm, ⟨62, _⟩ => ⟨S6600000x1, .f32⟩
  | .hbm, ⟨63, _⟩ => ⟨S_, .f32⟩
  | .hbm, ⟨64, _⟩ => ⟨S200000x1, .f32⟩
  | .hbm, ⟨65, _⟩ => ⟨S6600000x1, .i32⟩
  | .hbm, ⟨66, _⟩ => ⟨S200000x1, .f32⟩
  | .hbm, ⟨67, _⟩ => ⟨S1x1, .f32⟩
  | .hbm, ⟨68, _⟩ => ⟨S200000x1, .f32⟩
  | .hbm, ⟨69, _⟩ => ⟨S200000x1, .f32⟩
  | .hbm, ⟨70, _⟩ => ⟨S_, .f32⟩
  | .hbm, ⟨71, _⟩ => ⟨S200000x1, .f32⟩
  | .hbm, ⟨72, _⟩ => ⟨S200000x1, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call2_cst : Ref sig .tc := ⟨.hbm, 70, rfl⟩
abbrev main_call2_v0 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x128_S128x1_S200000x1_1_0_0_1_n_n_wf : DotDims.WF S200000x128 S128x1 S200000x1 [1] [0] [0] [1] [] []
  gather_S200000x1_S6600000x1_S6600000x1_1_0_n_n_0_1_11_wf : GatherDims.WF S200000x1 S6600000x1 S6600000x1 [1] [0] [] [0] [] 1 ![1, 1]
  scatter_S200000x1_S6600000x1_S6600000x1_1_0_0_1_wf : ScatterDims.WF S200000x1 S6600000x1 S6600000x1 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf
def gather_S200000x1_S6600000x1_S6600000x1_1_0_n_n_0_1_11 : GatherDims S200000x1 S6600000x1 S6600000x1 where
  offsetDims := [1]
  collapsedSliceDims := [0]
  operandBatchingDims := []
  startIndicesBatchingDims := []
  startIndexMap := [0]
  indexVectorDim := 1
  sliceSizes := ![1, 1]
  wf := gather_S200000x1_S6600000x1_S6600000x1_1_0_n_n_0_1_11_wf
def scatter_S200000x1_S6600000x1_S6600000x1_1_0_0_1 : ScatterDims S200000x1 S6600000x1 S6600000x1 where
  updateWindowDims := [1]
  insertedWindowDims := [0]
  scatterDimsToOperandDims := [0]
  indexVectorDim := 1
  wf := scatter_S200000x1_S6600000x1_S6600000x1_1_0_0_1_wf

class Facts : Prop extends Facts₀ where

variable [Facts]
-- ==== Proof.Linear.lean ====
/-
  The linear map of the layer, as one function of the feature array and the weight column:
  node `n` gets `∑ k, x n k · w k 0`, the sum over the 128 features on the extended reals.
  Both programs compute it: one as a matrix product accumulated from zero over blocks of 8000 nodes,
  the other as a single contraction over the whole array; at exact arithmetic both are this sum.
-/
import Idealize.ShloMosaic.Lib.ValueIdx
import Idealize.ShloMosaic.PureOps.Ideal

noncomputable section

namespace Cert.Gcn

open Idealize.ShloMosaic

/-- Feature `k` of the node that output index `i` names. -/
abbrev featIdx (i : (⟨2, ![200000, 1]⟩ : Shape).Idx) (k : Fin 128) : (⟨2, ![200000, 128]⟩ : Shape).Idx := fun a => match a with
  | ⟨0, _⟩ => ⟨(i 0).val, (i 0).isLt⟩
  | ⟨1, _⟩ => ⟨k.val, k.isLt⟩

/-- Row `k` of the weight column that output index `i` names. -/
abbrev weightIdx (i : (⟨2, ![200000, 1]⟩ : Shape).Idx) (k : Fin 128) : (⟨2, ![128, 1]⟩ : Shape).Idx := fun a => match a with
  | ⟨0, _⟩ => ⟨k.val, k.isLt⟩
  | ⟨1, _⟩ => ⟨(i 1).val, (i 1).isLt⟩

/-- `x · w`: at output index `i`, the sum over the 128 features of the node's feature times the weight. -/
def linear (x : FVec Ideal ⟨2, ![200000, 128]⟩ .f32) (w : FVec Ideal ⟨2, ![128, 1]⟩ .f32) : FVec Ideal ⟨2, ![200000, 1]⟩ .f32 :=
  fun i => ∑ k : Fin 128, x (featIdx i k) * w (weightIdx i k)

end Cert.Gcn

end
-- ==== Proof.LinearRegion.lean ====
/-
  The first kernel region, read as a value at the extended reals.

  The region runs 25 grid points over the node axis; point `t` loads rows `8000·t … 8000·t + 7999` of the
  features `x` (200000 × 128), the whole weight column `w` (128 × 1), and stores their matrix product accumulated
  from zero.  At exact arithmetic the narrowing of the operands is the identity and the product into a zero
  accumulator is the plain sum `∑ k, x n k · w k 0`; so every point writes back its own rows of ONE whole-array
  function, `linear x w`, and the 25 row blocks tile the 200000 rows.
-/
import proofs.«109093_j6889127543165_1_alg».proof.Proof.Gen.KernelIdeal.Frame
import proofs.«109093_j6889127543165_1_alg».proof.Proof.Linear
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.LinearRegion

open Cert.KernelIdeal Cert.KernelIdeal.Gen Cert.Gcn

theorem zeroOffsets : (![0, 0] : Fin 2 → Nat) = fun _ => 0 := funext fun a => by fin_cases a <;> rfl

/-! ## The block product's operand indices: output row `i` and contraction index `q` name feature `(i, q)` and weight `(q, 0)` -/

theorem lhs_axis0 (i : S8000x1.Idx) (q : dot_S8000x128_S128x1_S8000x1_1_0_0_1_n_n.contr.Idx) :
    (dot_S8000x128_S128x1_S8000x1_1_0_0_1_n_n.lhsIdx i q 0).val = (i 0).val := by
  unfold DotDims.lhsIdx
  rw [dif_neg (show ¬(0 : Fin S8000x128.rank) ∈ dot_S8000x128_S128x1_S8000x1_1_0_0_1_n_n.lhsBatch by decide), dif_pos (show (0 : Fin S8000x128.rank) ∈ dot_S8000x128_S128x1_S8000x1_1_0_0_1_n_n.lhsNonContracting by decide)]
  rfl
theorem lhs_axis1 (i : S8000x1.Idx) (q : dot_S8000x128_S128x1_S8000x1_1_0_0_1_n_n.contr.Idx) :
    (dot_S8000x128_S128x1_S8000x1_1_0_0_1_n_n.lhsIdx i q 1).val = (q ⟨0, by decide⟩).val :=
  dot_S8000x128_S128x1_S8000x1_1_0_0_1_n_n.lhsIdx_val_of_single rfl i q
theorem rhs_axis0 (i : S8000x1.Idx) (q : dot_S8000x128_S128x1_S8000x1_1_0_0_1_n_n.contr.Idx) :
    (dot_S8000x128_S128x1_S8000x1_1_0_0_1_n_n.rhsIdx i q 0).val = (q ⟨0, by decide⟩).val :=
  dot_S8000x128_S128x1_S8000x1_1_0_0_1_n_n.rhsIdx_val_of_single rfl i q
theorem rhs_axis1 (i : S8000x1.Idx) (q : dot_S8000x128_S128x1_S8000x1_1_0_0_1_n_n.contr.Idx) :
    (dot_S8000x128_S128x1_S8000x1_1_0_0_1_n_n.rhsIdx i q 1).val = (i 1).val := by
  unfold DotDims.rhsIdx
  rw [dif_neg (show ¬(1 : Fin S128x1.rank) ∈ dot_S8000x128_S128x1_S8000x1_1_0_0_1_n_n.rhsBatch by decide), dif_pos (show (1 : Fin S128x1.rank) ∈ dot_S8000x128_S128x1_S8000x1_1_0_0_1_n_n.rhsNonContracting by decide)]
  rfl

/-- Feature `k` of the block's row that `j` names, and row `k` of the weight column. -/
abbrev blkFeatIdx (j : S8000x1.Idx) (k : Fin 128) : S8000x128.Idx := fun a => match a with
  | ⟨0, _⟩ => ⟨(j 0).val, (j 0).isLt⟩
  | ⟨1, _⟩ => ⟨k.val, k.isLt⟩
abbrev blkWeightIdx (j : S8000x1.Idx) (k : Fin 128) : S128x1.Idx := fun a => match a with
  | ⟨0, _⟩ => ⟨k.val, k.isLt⟩
  | ⟨1, _⟩ => ⟨(j 1).val, (j 1).isLt⟩

/-- The body's stored value at row `j` of its block: the sum over the 128 features of the loaded feature times the
    loaded weight (the narrowing is the identity, the accumulator starts at zero). -/
theorem stored_apply (x0 : Vec Ideal S8000x128 .f32) (x1 : Vec Ideal S128x1 .f32) (j : S8000x1.Idx) :
    k0_pay1 x0 x1 j = ∑ k : Fin 128, x0 (blkFeatIdx j k) * x1 (blkWeightIdx j k) := by
  unfold k0_pay1
  simp only [matmul]
  rw [Ideal.matmul_constant_zero_apply, ← Equiv.sum_comp (ValueIdx.contrEquiv1 dot_S8000x128_S128x1_S8000x1_1_0_0_1_n_n 128 rfl rfl).symm]
  refine Finset.sum_congr rfl fun k _ => ?_
  have hk := ValueIdx.contrEquiv1_symm_val dot_S8000x128_S128x1_S8000x1_1_0_0_1_n_n 128 rfl rfl k
  have el : dot_S8000x128_S128x1_S8000x1_1_0_0_1_n_n.lhsIdx j ((ValueIdx.contrEquiv1 dot_S8000x128_S128x1_S8000x1_1_0_0_1_n_n 128 rfl rfl).symm k) = blkFeatIdx j k := funext fun a => Fin.ext (by
    match a with
    | ⟨0, _⟩ => exact lhs_axis0 _ _
    | ⟨1, _⟩ => exact (lhs_axis1 _ _).trans hk)
  have er : dot_S8000x128_S128x1_S8000x1_1_0_0_1_n_n.rhsIdx j ((ValueIdx.contrEquiv1 dot_S8000x128_S128x1_S8000x1_1_0_0_1_n_n 128 rfl rfl).symm k) = blkWeightIdx j k := funext fun a => Fin.ext (by
    match a with
    | ⟨0, _⟩ => exact (rhs_axis0 _ _).trans hk
    | ⟨1, _⟩ => exact rhs_axis1 _ _)
  rw [el, er]
  rfl

section Region

variable (V : (c : Dev nD) → (b : Ref sig .tc) → Buf (Elt Ideal) ((c : Thread nD τ).loc b))

/-- The features and the weight column as the region finds them. -/
abbrev feats (c : Dev nD) : FVec Ideal S200000x128 .f32 := V c main_arg0
abbrev weights (c : Dev nD) : FVec Ideal S128x1 .f32 := V c main_arg2

/-- The printed index maps over the 25 points: the features' window and the output's move together along the node
    axis, the weights' window stays at its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t`, entry `x`, is the array at row `8000·t + x₀`, column `x₁`. -/
theorem featBlock_apply (c : Dev nD) (t : Fin cfg0.N) (x : S8000x128.Idx) (k : S200000x128.Idx)
    (hk0 : (k 0).val = 8000 * t.val + (x 0).val) (hk1 : (k 1).val = (x 1).val) :
    (iblk0 V c 0 t : Vec Ideal S8000x128 .f32) x = feats V c k := by
  obtain ⟨e0, e1, -⟩ := index_facts t
  unfold iblk0
  rw [View.read_apply]
  show V c main_arg0 _ = V c main_arg0 _
  congr 1
  funext a
  apply Fin.ext
  match a with
  | ⟨0, _⟩ => show win0_0.index t 0 * 8000 + 1 * (x 0).val = (k 0).val; rw [e0, hk0]; omega
  | ⟨1, _⟩ => show win0_0.index t 1 * 128 + 1 * (x 1).val = (k 1).val; rw [e1, hk1]; omega

/-- The weights' block at every point is the weight column itself. -/
theorem weightBlock_apply (c : Dev nD) (t : Fin cfg0.N) (x k : S128x1.Idx)
    (hk0 : (k 0).val = (x 0).val) (hk1 : (k 1).val = (x 1).val) :
    (iblk0 V c 1 t : Vec Ideal S128x1 .f32) x = weights V c k := by
  obtain ⟨-, -, e2, e3, -⟩ := index_facts t
  unfold iblk0
  rw [View.read_apply]
  show V c main_arg2 _ = V c main_arg2 _
  congr 1
  funext a
  apply Fin.ext
  match a with
  | ⟨0, _⟩ => show win0_1.index t 0 * 128 + 1 * (x 0).val = (k 0).val; rw [e2, hk0]; omega
  | ⟨1, _⟩ => show win0_1.index t 1 * 1 + 1 * (x 1).val = (k 1).val; rw [e3, hk1]; omega

/-- What point `t` writes back is its rows of `linear` of the arrays the region entered with. -/
theorem writeBack (c : Dev nD) (t : Fin cfg0.N) :
    (dat0 V c).flushed 2 t = ((cfg0.win 2).blk t).view.read (Elt Ideal) (linear (feats V c) (weights V c)) := by
  show (cfg0.win 2).cut (grid0.coords t) ((dat0 V c).after 2 t) = _
  rw [after0_2]
  unfold out0_2
  rw [View.canon_unit_zero zeroOffsets]
  simp only [View.ld_unit_zero (S := S8000x128) zeroOffsets, View.ld_unit_zero (S := S128x1) zeroOffsets]
  obtain ⟨e0, e1, e2, e3, e4, e5⟩ := index_facts t
  funext j
  rw [View.read_apply]
  show k0_pay1 (iblk0 V c 0 t) (iblk0 V c 1 t) j = linear (feats V c) (weights V c) (((cfg0.win 2).blk t).view.emb j)
  refine (stored_apply (iblk0 V c 0 t) (iblk0 V c 1 t) j).trans ?_
  unfold linear
  refine Finset.sum_congr rfl fun k _ => ?_
  rw [featBlock_apply V c t (blkFeatIdx j k) (featIdx (((cfg0.win 2).blk t).view.emb j) k)
        (by show win0_2.index t 0 * 8000 + 1 * (j 0).val = 8000 * t.val + (j 0).val; rw [e4]; omega)
        rfl,
      weightBlock_apply V c t (blkWeightIdx j k) (weightIdx (((cfg0.win 2).blk t).view.emb j) k)
        rfl
        (by show win0_2.index t 1 * 1 + 1 * (j 1).val = (j 1).val; rw [e5]; omega)]

/-- Row `i` of the array lies in point `t`'s block iff it lies in rows `8000·t … 8000·t + 7999`. -/
theorem mem_block (t : Fin cfg0.N) (i : S200000x1.Idx) :
    i ∈ ((cfg0.win 2).blk t).view.set ↔ ∀ a : Fin 2, win0_2.index t a * S8000x1.size a ≤ (i a).val ∧ (i a).val < win0_2.index t a * S8000x1.size a + S8000x1.size a := by
  show i ∈ ((View.whole main_v0).slice (win0_2.rect t)).set ↔ _
  rw [View.set_slice_whole, Rect.mem_set_unit]
  exact Iff.rfl

/-- The 25 row blocks tile the node axis: row `i` lies in the block of point `i / 8000`, which is written back. -/
theorem covered (i : S200000x1.Idx) :
    ∃ t : Fin cfg0.N, (cfg0.win 2).flush t = true ∧ i ∈ ((cfg0.win 2).blk t).view.set := by
  have hi0 : (i 0).val < 200000 := (i 0).isLt
  have hi1 : (i 1).val < 1 := (i 1).isLt
  obtain ⟨t, ht⟩ : ∃ t : Fin cfg0.N, t.val = (i 0).val / 8000 :=
    ⟨⟨(i 0).val / 8000, by rw [show cfg0.N = 25 from N_0]; omega⟩, rfl⟩
  obtain ⟨-, -, -, -, e4, e5⟩ := index_facts t
  refine ⟨t, flush0_2 t, ?_⟩
  rw [mem_block]
  intro a
  match a with
  | ⟨0, _⟩ => show win0_2.index t 0 * 8000 ≤ (i 0).val ∧ (i 0).val < win0_2.index t 0 * 8000 + 8000; rw [e4, ht]; omega
  | ⟨1, _⟩ => show win0_2.index t 1 * 1 ≤ (i 1).val ∧ (i 1).val < win0_2.index t 1 * 1 + 1; rw [e5]; omega

/-- THE REGION'S RESULT: the output array ends holding `x · w`, `x` and `w` the arrays the region entered with. -/
theorem array_eq (c : Dev nD) : (dat0 V c).arrAt 2 cfg0.N = linear (feats V c) (weights V c) :=
  (dat0 V c).arrAt_eq_of_cover 2 (linear (feats V c) (weights V c)) (fun t _ => writeBack V c t) (covered)

end Region

end Cert.KernelIdeal.LinearRegion

end
-- ==== Proof.BiasReluRegion.lean ====
/-
  The second kernel region, read as a value at the extended reals.

  The region runs 25 grid points over the node axis; point `t` loads rows `8000·t … 8000·t + 7999` of the
  aggregated sums `s` (a 200000 × 1 array), the one-entry bias `b`, and stores `max (s + b) 0` over those rows.
  So every point writes back its own rows of ONE whole-array function, `n ↦ max (s n + b) 0`, and since the 25
  row blocks tile the 200000 rows, the output array ends holding that function.
-/
import proofs.«109093_j6889127543165_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRelu

open Cert.KernelIdeal Cert.KernelIdeal.Gen

/-- `max (s n + b) 0` at every node `n`. -/
def biasRelu (s : FVec Ideal S200000x1 .f32) (b : FVec Ideal S1x1 .f32) : FVec Ideal S200000x1 .f32 :=
  fun i => max (s i + b (ix2 0 0)) (Ideal.ofBits .f32 0x00000000#32)

theorem zeroOffsets : (![0, 0] : Fin 2 → Nat) = fun _ => 0 := funext fun a => by fin_cases a <;> rfl

/-- The body's stored value at row `j` of its block: the loaded sum there plus the bias, floored at zero. -/
theorem stored_apply (x0 : Vec Ideal S8000x1 .f32) (x1 : Vec Ideal S1x1 .f32) (j : S8000x1.Idx) :
    k1_pay1 x0 x1 j = max (x0 j + x1 (ix2 0 0)) (Ideal.ofBits .f32 0x00000000#32) := by
  unfold k1_pay1
  rw [shapeCast_self, shapeCast_self]
  show max (x0 j + broadcastTo S8000x1 x1 broadcasts_S1x1_S8000x1 j) _ = _
  rw [broadcastTo_apply x1 broadcasts_S1x1_S8000x1 j (ix2 0 0) (fun a => by
    match a with
    | ⟨0, _⟩ => show 0 = if (1 : Nat) = 1 then 0 else _; rw [if_pos rfl]
    | ⟨1, _⟩ => show 0 = if (1 : Nat) = 1 then 0 else _; rw [if_pos rfl])]
  rfl

section Region

variable (V : (c : Dev nD) → (b : Ref sig .tc) → Buf (Elt Ideal) ((c : Thread nD τ).loc b))

/-- The aggregated sums and the bias as the region finds them. -/
abbrev sums (c : Dev nD) : FVec Ideal S200000x1 .f32 := V c main_v45
abbrev bias (c : Dev nD) : FVec Ideal S1x1 .f32 := V c main_v46

/-- The printed index maps over the 25 points: the sums' window and the output's move together along the node axis,
    the bias's window stays at its one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The sums' block at point `t`, row `x`, is the array at row `8000·t + x`. -/
theorem sumsBlock_apply (c : Dev nD) (t : Fin cfg1.N) (x : S8000x1.Idx) (k : S200000x1.Idx)
    (hk0 : (k 0).val = 8000 * t.val + (x 0).val) (hk1 : (k 1).val = (x 1).val) :
    (iblk1 V c 0 t : Vec Ideal S8000x1 .f32) x = sums V c k := by
  obtain ⟨e0, e1, -⟩ := index_facts t
  unfold iblk1
  rw [View.read_apply]
  show V c main_v45 _ = V c main_v45 _
  congr 1
  funext a
  apply Fin.ext
  match a with
  | ⟨0, _⟩ => show win1_0.index t 0 * 8000 + 1 * (x 0).val = (k 0).val; rw [e0, hk0]; omega
  | ⟨1, _⟩ => show win1_0.index t 1 * 1 + 1 * (x 1).val = (k 1).val; rw [e1, hk1]; omega

/-- The bias's block at every point is the one-entry array itself. -/
theorem biasBlock_apply (c : Dev nD) (t : Fin cfg1.N) :
    (iblk1 V c 1 t : Vec Ideal S1x1 .f32) (ix2 0 0) = bias V c (ix2 0 0) := by
  obtain ⟨-, -, e2, e3, -⟩ := index_facts t
  unfold iblk1
  rw [View.read_apply]
  show V c main_v46 _ = V c main_v46 _
  congr 1
  funext a
  apply Fin.ext
  match a with
  | ⟨0, _⟩ => show win1_1.index t 0 * 1 + 1 * 0 = 0; rw [e2]
  | ⟨1, _⟩ => show win1_1.index t 1 * 1 + 1 * 0 = 0; rw [e3]

/-- What point `t` writes back is its rows of `biasRelu` of the arrays the region entered with. -/
theorem writeBack (c : Dev nD) (t : Fin cfg1.N) :
    (dat1 V c).flushed 2 t = ((cfg1.win 2).blk t).view.read (Elt Ideal) (biasRelu (sums V c) (bias V c)) := by
  show (cfg1.win 2).cut (grid1.coords t) ((dat1 V c).after 2 t) = _
  rw [after1_2]
  unfold out1_2
  rw [View.canon_unit_zero zeroOffsets]
  simp only [View.ld_unit_zero (S := S8000x1) zeroOffsets, View.ld_unit_zero (S := S1x1) zeroOffsets]
  obtain ⟨e0, e1, e2, e3, e4, e5⟩ := index_facts t
  funext j
  rw [View.read_apply]
  show k1_pay1 (iblk1 V c 0 t) (iblk1 V c 1 t) j = biasRelu (sums V c) (bias V c) (((cfg1.win 2).blk t).view.emb j)
  refine (stored_apply (iblk1 V c 0 t) (iblk1 V c 1 t) j).trans ?_
  unfold biasRelu
  rw [sumsBlock_apply V c t j (((cfg1.win 2).blk t).view.emb j)
        (by show win1_2.index t 0 * 8000 + 1 * (j 0).val = _; rw [e4]; omega)
        (by show win1_2.index t 1 * 1 + 1 * (j 1).val = _; rw [e5]; omega),
      biasBlock_apply V c t]

/-- Row `i` of the array lies in point `t`'s block iff it lies in rows `8000·t … 8000·t + 7999`. -/
theorem mem_block (t : Fin cfg1.N) (i : S200000x1.Idx) :
    i ∈ ((cfg1.win 2).blk t).view.set ↔ ∀ a : Fin 2, win1_2.index t a * S8000x1.size a ≤ (i a).val ∧ (i a).val < win1_2.index t a * S8000x1.size a + S8000x1.size a := by
  show i ∈ ((View.whole main_v47).slice (win1_2.rect t)).set ↔ _
  rw [View.set_slice_whole, Rect.mem_set_unit]
  exact Iff.rfl

/-- The 25 row blocks tile the node axis: row `i` lies in the block of point `i / 8000`, which is written back. -/
theorem covered (i : S200000x1.Idx) :
    ∃ t : Fin cfg1.N, (cfg1.win 2).flush t = true ∧ i ∈ ((cfg1.win 2).blk t).view.set := by
  have hi0 : (i 0).val < 200000 := (i 0).isLt
  have hi1 : (i 1).val < 1 := (i 1).isLt
  obtain ⟨t, ht⟩ : ∃ t : Fin cfg1.N, t.val = (i 0).val / 8000 :=
    ⟨⟨(i 0).val / 8000, by rw [show cfg1.N = 25 from N_1]; omega⟩, rfl⟩
  obtain ⟨-, -, -, -, e4, e5⟩ := index_facts t
  refine ⟨t, flush1_2 t, ?_⟩
  rw [mem_block]
  intro a
  match a with
  | ⟨0, _⟩ => show win1_2.index t 0 * 8000 ≤ (i 0).val ∧ (i 0).val < win1_2.index t 0 * 8000 + 8000; rw [e4, ht]; omega
  | ⟨1, _⟩ => show win1_2.index t 1 * 1 ≤ (i 1).val ∧ (i 1).val < win1_2.index t 1 * 1 + 1; rw [e5]; omega

/-- THE REGION'S RESULT: the output array ends holding `max (s n + b) 0` at every node `n`, `s` and `b` the arrays
    the region entered with. -/
theorem array_eq (c : Dev nD) : (dat1 V c).arrAt 2 cfg1.N = biasRelu (sums V c) (bias V c) :=
  (dat1 V c).arrAt_eq_of_cover 2 (biasRelu (sums V c) (bias V c)) (fun t _ => writeBack V c t) (covered)

end Region

end Cert.KernelIdeal.BiasRelu

end
-- ==== Proof.Chain.lean ====
/-
  The graph-convolution chain that both programs run on the host between the linear map and the bias:
  from the node features already multiplied by the weights, `h`, and the edge list `e`, the
  degree-normalised sum over incoming edges.

  With `E = 6400000` edges and `N = 200000` nodes, every node gets a self-loop: the source list is
  row 0 of `e` followed by `0, 1, …, N-1`, the target list row 1 of `e` followed by the same.
  The degree of a node counts the entries of the target list equal to it; `d^{-1/2}` is taken where the
  degree is positive and `0` elsewhere; an edge `k` weighs `d^{-1/2}(src k) · d^{-1/2}(dst k)`, an index
  below zero read from the end of the table; and node `n` receives the sum over the edges with target `n`
  of `h (src k) ·` that weight.  Nothing here is evaluated by the certificate: the two programs apply this
  one function to two arrays `h` that are shown equal.
-/
import proofs.«109093_j6889127543165_1_alg».proof.ReferenceIdeal
import proofs.«109093_j6889127543165_1_alg».proof.Proof.Gen.ReferenceIdeal

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-- The source of every edge: row 0 of the edge list, then one self-loop per node. -/
def srcIdx (e : IVec S2x6400000 32) : IVec S6600000 32 :=
  concatenate S6600000 0 [⟨S6400000, (shapeCast _ (extractStridedSlice S1x6400000 ![0, 0] e slices_S2x6400000_S1x6400000_0_0) shapeCasts_S1x6400000_S6400000)⟩, ⟨S200000, (iotaInDim S200000 32 0)⟩] concatenates_S6400000_S200000_S6600000_d0

/-- The target of every edge: row 1 of the edge list, then one self-loop per node. -/
def dstIdx (e : IVec S2x6400000 32) : IVec S6600000 32 :=
  concatenate S6600000 0 [⟨S6400000, (shapeCast _ (extractStridedSlice S1x6400000 ![1, 0] e slices_S2x6400000_S1x6400000_1_0) shapeCasts_S1x6400000_S6400000)⟩, ⟨S200000, (iotaInDim S200000 32 0)⟩] concatenates_S6400000_S200000_S6600000_d0

/-- An index below zero counts from the end of a table of `N` rows: `v + N`. -/
def wrapIdx (v : IVec S6600000 32) : IVec S6600000 32 :=
  select (cmpi .slt v (broadcastInDim S6600000 ![] bcast_S_S6600000 (constantI S_ 32 0#32))) (addi v (broadcastInDim S6600000 ![] bcast_S_S6600000 (constantI S_ 32 200000#32))) v

/-- The degree of each node: a one for every entry of the target list, added at that entry's node. -/
def degree (e : IVec S2x6400000 32) : FVec F S200000 .f32 :=
  Host.scatterAdd scatter_S200000_S6600000x1_S6600000_n_0_0_1 (broadcastInDim S200000 ![] bcast_S_S200000 (constant S_ .f32 0x00000000#32)) (broadcastInDim S6600000x1 ![0] bcast_S6600000_S6600000x1_0 (dstIdx e)) (broadcastInDim S6600000 ![] bcast_S_S6600000 (constant S_ .f32 0x3F800000#32))

/-- Where the degree is positive. -/
def hasEdge (e : IVec S2x6400000 32) : IVec S200000 1 :=
  cmpf (F := F) .ogt (degree (F := F) e) (broadcastInDim S200000 ![] bcast_S_S200000 (constant S_ .f32 0x00000000#32))

/-- `d^{-1/2}` where the degree `d` is positive (the square root taken of `1` elsewhere, and the result
    replaced by `0` there). -/
def invSqrtDegree (e : IVec S2x6400000 32) : FVec F S200000 .f32 :=
  select (hasEdge (F := F) e) (Host.rsqrt (select (hasEdge (F := F) e) (degree (F := F) e) (broadcastInDim S200000 ![] bcast_S_S200000 (id (constant S_ .f32 0x3F800000#32))))) (broadcastInDim S200000 ![] bcast_S_S200000 (id (constant S_ .f32 0x00000000#32)))

/-- The weight of edge `k`: `d^{-1/2}` at its source times `d^{-1/2}` at its target. -/
def edgeNorm (e : IVec S2x6400000 32) : FVec F S6600000 .f32 :=
  mulf (Host.gather gather_S200000_S6600000x1_S6600000_n_0_n_n_0_1_1 (invSqrtDegree (F := F) e) (broadcastInDim S6600000x1 ![0] bcast_S6600000_S6600000x1_0 (wrapIdx (srcIdx e)))) (Host.gather gather_S200000_S6600000x1_S6600000_n_0_n_n_0_1_1 (invSqrtDegree (F := F) e) (broadcastInDim S6600000x1 ![0] bcast_S6600000_S6600000x1_0 (wrapIdx (dstIdx e))))

/-- The aggregation: node `n` receives the sum, over the edges with target `n`, of `h` at the edge's source
    times the edge's weight. -/
def aggregate (h : FVec F S200000x1 .f32) (e : IVec S2x6400000 32) : FVec F S200000x1 .f32 :=
  Host.scatterAdd scatter_S200000x1_S6600000x1_S6600000x1_1_0_0_1 (broadcastInDim S200000x1 ![] bcast_S_S200000x1 (constant S_ .f32 0x00000000#32)) (broadcastInDim S6600000x1 ![0] bcast_S6600000_S6600000x1_0 (dstIdx e)) (mulf (Host.gather gather_S200000x1_S6600000x1_S6600000x1_1_0_n_n_0_1_11 h (broadcastInDim S6600000x1 ![0] bcast_S6600000_S6600000x1_0 (wrapIdx (srcIdx e)))) (broadcastInDim S6600000x1 ![0] bcast_S6600000_S6600000x1_0 (edgeNorm (F := F) e)))

end Cert.Gcn

end
-- ==== Proof.HostStretch.lean ====
/-
  The kernel program's host operations between its two regions, read once.

  After the first region the buffer of `h` holds that region's output and every other buffer is as launched.  The
  host then builds the source and target lists, the degrees, `d^{-1/2}`, the edge weights, gathers `h` at the
  sources, scales, and adds at the targets: exactly the chain `Cert.Gcn.aggregate`, applied to the first region's
  output and the edge list; and it lays the bias out as a 1 × 1 array.  These two are what the second region enters
  with.  The chain is named, never opened: the two composed terms are compared once, as they stand.
-/
import proofs.«109093_j6889127543165_1_alg».proof.Proof.Gen.KernelIdeal.Frame
import proofs.«109093_j6889127543165_1_alg».proof.Proof.Chain
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostStretch

open Cert.KernelIdeal Cert.KernelIdeal.Gen

variable {F : FTy → Type} [FloatOps F]
variable (m : (ℓ : Loc nD τ sig) → Buf (Elt F) ℓ) (ρ : Dev nD → PrngReg)

set_option maxHeartbeats 2000000 in
/-- The sums the second region enters with: the chain of the first region's output and the edge list. -/
theorem sums_entry (c : Dev nD) :
    W6 m ρ c (Proc.devRef .tc main_v45)
      = Cert.Gcn.aggregate (F := F) (W1 m ρ c (Proc.devRef .tc main_v0)) (W1 m ρ c (Proc.devRef .tc main_arg1)) := by
  show StableHlo.after hostOps1_4 (StableHlo.after hostOps1_3 (StableHlo.after hostOps1_2 (StableHlo.after hostOps1_1 (StableHlo.after hostOps1 (W1 m ρ c))))) (Proc.devRef .tc main_v45) = _
  generalize W1 m ρ c = W
  simp only [hostOps1, hostOps1_1, hostOps1_2, hostOps1_3, hostOps1_4]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  unfold Cert.Gcn.aggregate Cert.Gcn.edgeNorm Cert.Gcn.invSqrtDegree Cert.Gcn.hasEdge Cert.Gcn.degree Cert.Gcn.wrapIdx Cert.Gcn.srcIdx Cert.Gcn.dstIdx
  rfl

/-- The bias the second region enters with: the one-entry bias laid out as a 1 × 1 array. -/
theorem bias_entry (c : Dev nD) :
    W6 m ρ c (Proc.devRef .tc main_v46)
      = broadcastInDim S1x1 ![1] bcast_S1_S1x1_1 (W1 m ρ c (Proc.devRef .tc main_arg3)) := by
  show StableHlo.after hostOps1_4 (StableHlo.after hostOps1_3 (StableHlo.after hostOps1_2 (StableHlo.after hostOps1_1 (StableHlo.after hostOps1 (W1 m ρ c))))) (Proc.devRef .tc main_v46) = _
  generalize W1 m ρ c = W
  simp only [hostOps1, hostOps1_1, hostOps1_2, hostOps1_3, hostOps1_4]
  after_results_simp

/-- At the first region's exit the edge list and the bias are as launched (no window of that region is over them), -/
theorem exit_edges (c : Dev nD) : W1 m ρ c (Proc.devRef .tc main_arg1) = m ((c : Thread nD τ).loc main_arg1) :=
  (W1_of_ne m ρ c main_arg1 (by decide)).trans rfl
theorem exit_bias (c : Dev nD) : W1 m ρ c (Proc.devRef .tc main_arg3) = m ((c : Thread nD τ).loc main_arg3) :=
  (W1_of_ne m ρ c main_arg3 (by decide)).trans rfl

/-- and the buffer of `h` holds what the region's write-backs left. -/
theorem exit_h (c : Dev nD) : W1 m ρ c (Proc.devRef .tc main_v0) = (dat0 (V0 m ρ) c).arrAt 2 cfg0.N :=
  W1_arr m ρ c 2

/-- At the second region's exit the result buffer holds what that region's write-backs left. -/
theorem exit_result (c : Dev nD) : W7 m ρ c (Proc.devRef .tc main_v47) = (dat1 (V6 m ρ) c).arrAt 2 cfg1.N :=
  W7_arr m ρ c 2

end Cert.KernelIdeal.HostStretch

end
-- ==== Proof.KernelValue.lean ====
/-
  The kernel program's result, read as a value at the extended reals.

  The result buffer ends at what the second region's write-backs left: `max (s n + b) 0` of the arrays that region
  entered with.  Those are the chain `Cert.Gcn.aggregate` of the first region's output and the edge list, and the bias
  laid out as a 1 × 1 array; and the first region's output is `Cert.Gcn.linear x w` of the launch contents.  So the
  result at node `n` is `max (aggregate (linear x w) e n + b) 0`.
-/
import proofs.«109093_j6889127543165_1_alg».proof.Proof.KernelIdealRun
import proofs.«109093_j6889127543165_1_alg».proof.Proof.LinearRegion
import proofs.«109093_j6889127543165_1_alg».proof.Proof.BiasReluRegion
import proofs.«109093_j6889127543165_1_alg».proof.Proof.HostStretch

set_option maxRecDepth 16384

noncomputable section

open Idealize.ShloMosaic Idealize.ShloMosaic.TcCoe Idealize.SL.Sem Idealize.ShloMosaic.ValueIdx

namespace Cert.KernelIdeal.GcnValue

open Cert.KernelIdeal Cert.KernelIdeal.Gen

variable (m : (ℓ : Loc nD τ sig) → Buf (Elt Ideal) ℓ) (ρ : Dev nD → PrngReg)

/-- The layer's output as one function of the four argument arrays. -/
def layer (x : FVec Ideal S200000x128 .f32) (e : IVec S2x6400000 32) (w : FVec Ideal S128x1 .f32) (b : FVec Ideal S1 .f32) :
    FVec Ideal S200000x1 .f32 :=
  fun i => max (Cert.Gcn.aggregate (F := Ideal) (Cert.Gcn.linear x w) e i + broadcastInDim S1x1 ![1] bcast_S1_S1x1_1 b (ix2 0 0))
    (Ideal.ofBits .f32 0x00000000#32)

/-- The first region enters with the launch contents of the features and the weights. -/
theorem entry_feats (c : Dev nD) : LinearRegion.feats (V0 m ρ) c = m ((c.tc : Thread nD τ).loc main_arg0) := rfl
theorem entry_weights (c : Dev nD) : LinearRegion.weights (V0 m ρ) c = m ((c.tc : Thread nD τ).loc main_arg2) := rfl

/-- The second region enters with the chain of the first region's output and the edge list, and the bias laid out as a
    1 × 1 array (the host stretch between the regions, read once). -/
theorem entry_sums (c : Dev nD) : BiasRelu.sums (V6 m ρ) c
    = Cert.Gcn.aggregate (F := Ideal) (W1 m ρ c (Proc.devRef .tc main_v0)) (W1 m ρ c (Proc.devRef .tc main_arg1)) :=
  HostStretch.sums_entry m ρ c
theorem entry_bias (c : Dev nD) : BiasRelu.bias (V6 m ρ) c
    = broadcastInDim S1x1 ![1] bcast_S1_S1x1_1 (W1 m ρ c (Proc.devRef .tc main_arg3)) :=
  HostStretch.bias_entry m ρ c

/-- THE KERNEL'S RESULT: the result buffer ends at `layer` of the launch contents of the four arguments. -/
theorem result_eq (c : Dev nD) :
    W7 m ρ c (Proc.devRef .tc main_v47)
      = layer (m ((c.tc : Thread nD τ).loc main_arg0)) (m ((c.tc : Thread nD τ).loc main_arg1))
          (m ((c.tc : Thread nD τ).loc main_arg2)) (m ((c.tc : Thread nD τ).loc main_arg3)) := by
  rw [HostStretch.exit_result, BiasRelu.array_eq (V6 m ρ) c, entry_sums, entry_bias, HostStretch.exit_edges, HostStretch.exit_bias, HostStretch.exit_h,
    LinearRegion.array_eq (V0 m ρ) c, entry_feats, entry_weights]
  unfold layer BiasRelu.biasRelu
  generalize Cert.Gcn.aggregate (F := Ideal)
    (Cert.Gcn.linear (m ((c.tc : Thread nD τ).loc main_arg0)) (m ((c.tc : Thread nD τ).loc main_arg2)))
    (m ((c.tc : Thread nD τ).loc main_arg1)) = s
  rfl

/-- The run, read: the result buffer at `layer` of the arguments, the arguments unchanged. -/
theorem run : θ_run defs (onTc (τ := τ) (main (F := Ideal))) ⟨m, fun _ => 0, ρ⟩ (fun r => ∀ c : Dev nD,
      r.2.mem ((c.tc : Thread nD τ).loc main_v47)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩)
    (Cert.KernelIdeal.GenRun.run_result (F := Ideal) m ρ)

end Cert.KernelIdeal.GcnValue

end
-- ==== Proof.RefValue.lean ====
/-
  The reference program's result, read as a value.

  Its run ends with the result array at one composed term of the arguments.  That term is: the host's
  contraction `x · w` over the whole feature array, fed to the chain `Cert.Gcn.aggregate` with the edge list, the
  bias added at every node, and the maximum with zero.  At the extended reals the contraction is the plain sum
  `Cert.Gcn.linear x w`, a broadcast reads its one source entry, and so the result at node `n` is
  `max (aggregate (linear x w) e n + b) 0`.
-/
import proofs.«109093_j6889127543165_1_alg».proof.Proof.RefRunPatched
import proofs.«109093_j6889127543165_1_alg».proof.Proof.RefReadPatched
import proofs.«109093_j6889127543165_1_alg».proof.Proof.Chain
import proofs.«109093_j6889127543165_1_alg».proof.Proof.Linear
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.GcnValue

open Cert.ReferenceIdeal Cert.ReferenceIdeal.Gen

section AnyValues

variable {F : FTy → Type} [FloatOps F]

/-- The run's composed term is the chain of the host's contraction, then the bias and the floor at zero. -/
theorem result_chain (m : (ℓ : Loc nD τ sig) → Buf (Elt F) ℓ) (c : Dev nD) :
    Cert.ReferenceIdeal.Value.res_main_v49 m c
      = maximumf (addf (Cert.Gcn.aggregate (F := F)
            (Host.dotGeneral dot_S200000x128_S128x1_S200000x1_1_0_0_1_n_n none (m ((c.tc : Thread nD τ).loc main_arg0)) (m ((c.tc : Thread nD τ).loc main_arg2)))
            (m ((c.tc : Thread nD τ).loc main_arg1)))
          (broadcastInDim S200000x1 ![0, 1] bcast_S1x1_S200000x1_0_1 (broadcastInDim S1x1 ![1] bcast_S1_S1x1_1 (m ((c.tc : Thread nD τ).loc main_arg3)))))
        (broadcastInDim S200000x1 ![] bcast_S_S200000x1 (constant S_ .f32 0x00000000#32)) := by
  unfold Cert.ReferenceIdeal.Value.res_main_v49 Cert.Gcn.aggregate Cert.Gcn.edgeNorm Cert.Gcn.invSqrtDegree Cert.Gcn.hasEdge Cert.Gcn.degree Cert.Gcn.wrapIdx Cert.Gcn.srcIdx Cert.Gcn.dstIdx
  rfl

end AnyValues

/-- At the extended reals the host's contraction over the 128 features is the plain sum. -/
theorem contraction_eq_linear (x : FVec Ideal S200000x128 .f32) (w : FVec Ideal S128x1 .f32) :
    Host.dotGeneral dot_S200000x128_S128x1_S200000x1_1_0_0_1_n_n none x w = Cert.Gcn.linear x w := by
  funext i
  show Cert.ReferenceIdeal.Read.val_main_v33 (F := Ideal) x w i = _
  rw [Cert.ReferenceIdeal.Read.val_main_v33_apply]
  rfl

/-- The bias broadcast to every node reads the 1 × 1 array's one entry. -/
theorem bias_apply (b : FVec Ideal S1 .f32) (i : S200000x1.Idx) :
    (broadcastInDim S200000x1 ![0, 1] bcast_S1x1_S200000x1_0_1 (broadcastInDim S1x1 ![1] bcast_S1_S1x1_1 b)) i
      = broadcastInDim S1x1 ![1] bcast_S1_S1x1_1 b (ix2 0 0) := by
  show Cert.ReferenceIdeal.Read.val_main_v47 (F := Ideal) b i = Cert.ReferenceIdeal.Read.val_main_v46 (F := Ideal) b (ix2 0 0)
  rw [Cert.ReferenceIdeal.Read.val_main_v47_apply]
  exact congrArg _ (funext fun a => by match a with | ⟨0, _⟩ => rfl | ⟨1, _⟩ => rfl)

/-- The zero every node is floored at. -/
theorem zero_apply (i : S200000x1.Idx) :
    (broadcastInDim S200000x1 ![] bcast_S_S200000x1 (constant (F := Ideal) S_ .f32 0x00000000#32)) i = Ideal.ofBits .f32 0x00000000#32 := by
  show Cert.ReferenceIdeal.Read.val_main_call2_v0 (F := Ideal) i = _
  rw [Cert.ReferenceIdeal.Read.val_main_call2_v0_apply]
  rfl

/-- THE REFERENCE'S RESULT at node `n`: `max (aggregate (x · w) e n + b) 0`. -/
theorem result_eq (m : (ℓ : Loc nD τ sig) → Buf (Elt Ideal) ℓ) (c : Dev nD) :
    Cert.ReferenceIdeal.Value.res_main_v49 m c
      = fun i => max (Cert.Gcn.aggregate (F := Ideal)
            (Cert.Gcn.linear (m ((c.tc : Thread nD τ).loc main_arg0)) (m ((c.tc : Thread nD τ).loc main_arg2)))
            (m ((c.tc : Thread nD τ).loc main_arg1)) i
          + broadcastInDim S1x1 ![1] bcast_S1_S1x1_1 (m ((c.tc : Thread nD τ).loc main_arg3)) (ix2 0 0))
        (Ideal.ofBits .f32 0x00000000#32) := by
  rw [result_chain, contraction_eq_linear]
  generalize Cert.Gcn.aggregate (F := Ideal)
    (Cert.Gcn.linear (m ((c.tc : Thread nD τ).loc main_arg0)) (m ((c.tc : Thread nD τ).loc main_arg2)))
    (m ((c.tc : Thread nD τ).loc main_arg1)) = s
  funext i
  rw [maximumf_apply, addf_apply, bias_apply, zero_apply]

end Cert.ReferenceIdeal.GcnValue

end
-- ==== Proof.lean ====
/-
  The certificate of a one-layer graph convolution: a Pallas kernel program against its jnp reference.

  Both programs compute, for 200000 nodes with 128 features, a weight column `w`, 6400000 edges `e` and a bias `b`,

      out n = max ( Σ_{k : dst k = n}  (x · w)(src k) · d^{-1/2}(src k) · d^{-1/2}(dst k)  +  b , 0 ),

  `src`, `dst` the edge list with a self-loop appended for every node and `d` the degree of a node as a target.

  The kernel program computes `x · w` in a first region (a matrix product accumulated from zero, 8000 nodes a grid
  point), runs the degree-normalised aggregation on the host, and adds the bias and floors at zero in a second region
  (8000 nodes a grid point); the reference computes `x · w` by one contraction and does the rest on the host.  At the
  extended reals the two linear maps are one sum (`Cert.Gcn.linear`), the aggregation is literally the same host
  function of it (`Cert.Gcn.aggregate`, named and never opened), and the last step is the same pointwise function:
  both results are `Cert.KernelIdeal.GcnValue.layer x e w b`.  No law of arithmetic beyond that is used, so the
  finiteness of the inputs is never opened.

  The frames: the two kernel programs' are the launch over their segments; the reference has no kernel, and its frame
  is its run with the result dropped.  The idealization rewrote no operation, so there is nothing to preserve.
-/
import proofs.«109093_j6889127543165_1_alg».proof.Defs
import proofs.«109093_j6889127543165_1_alg».proof.Proof.Gen.Kernel
import proofs.«109093_j6889127543165_1_alg».proof.Proof.Gen.Kernel.Frame
import proofs.«109093_j6889127543165_1_alg».proof.Proof.Gen.KernelIdeal
import proofs.«109093_j6889127543165_1_alg».proof.Proof.Gen.KernelIdeal.Frame
import proofs.«109093_j6889127543165_1_alg».proof.Proof.Gen.ReferenceIdeal
import proofs.«109093_j6889127543165_1_alg».proof.Proof.Gen.Pre_finite_inputs
import proofs.«109093_j6889127543165_1_alg».proof.Proof.KernelValue
import proofs.«109093_j6889127543165_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the four arguments both programs end with the result array at `layer` of them. -/
theorem algebraic : Cert.algebraic_KernelIdeal_ReferenceIdeal := by
  intro m ρ m' ρ' _ hagree
  refine ⟨fun c => Cert.KernelIdeal.GcnValue.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.GcnValue.run m ρ, ?_⟩
  refine (θ_run Cert.ReferenceIdeal.defs _ _).mono (fun _ h c => ⟨(h c).1.trans ?_, (h c).2⟩)
    (Cert.ReferenceIdeal.Value.run (F := Ideal) m' ρ')
  beta_reduce
  rw [Cert.ReferenceIdeal.GcnValue.result_eq, (hagree c).1, (hagree c).2.1, (hagree c).2.2.1, (hagree c).2.2.2]
  unfold Cert.KernelIdeal.GcnValue.layer
  generalize Cert.Gcn.aggregate (F := Ideal) _ _ = s
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
